-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x4 : Shape := ⟨2, ![2048, 4]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_

variable [Facts]

def fn {F : FTy → Type} [FloatOps F] (main_arg0 : FVec F S4x4096x2048 .f32) (main_arg1 : FVec F S2048x4 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x4 .f32 := Host.absf main_arg1
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  main_v8
-- ==== Kernel.lean ====
abbrev S4x4096x2048 : Shape := ⟨3, ![4, 4096, 2048]⟩
abbrev S2048x4 : Shape := ⟨2, ![2048, 4]⟩
abbrev S1x512x2048 : Shape := ⟨3, ![1, 512, 2048]⟩
abbrev S8x2048 : Shape := ⟨2, ![8, 2048]⟩
abbrev S512x2048 : Shape := ⟨2, ![512, 2048]⟩
abbrev S520x2048 : Shape := ⟨2, ![520, 2048]⟩
abbrev S2048x1 : Shape := ⟨2, ![2048, 1]⟩
abbrev S2048 : Shape := ⟨1, ![2048]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S2048x4, .f32⟩
  | .local _ .vmem, ⟨3, _⟩ => ⟨S1x512x2048, .f32⟩
  | .local _ .vmem, ⟨4, _⟩ => ⟨S1x512x2048, .f32⟩
  | .local _ .vmem, ⟨5, _⟩ => ⟨S8x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  concatenates_S8x2048_S512x2048_S520x2048_d0 : Shape.Concatenates [S8x2048, S512x2048] S520x2048 0
  inb_S2048x4_S2048x4_0_0 : ∀ a, (![0, 0] : Fin 2 → Nat) a + S2048x4.size a ≤ S2048x4.size a
  h_S2048x4 : 0 < S2048x4.numel
  slices_S520x2048_o5_0_S512x2048 : S520x2048.Slices ![5, 0] S512x2048
  slices_S2048x4_o0_0_S2048x1 : S2048x4.Slices ![0, 0] S2048x1
  shapeCasts_S2048x1_S2048 : S2048x1.ShapeCasts S2048
  shapeCasts_S2048_S1x2048 : S2048.ShapeCasts S1x2048
  broadcasts_S1x2048_S512x2048 : S1x2048.Broadcasts S512x2048
  slices_S520x2048_o6_0_S512x2048 : S520x2048.Slices ![6, 0] S512x2048
  slices_S2048x4_o0_1_S2048x1 : S2048x4.Slices ![0, 1] S2048x1
  slices_S520x2048_o7_0_S512x2048 : S520x2048.Slices ![7, 0] S512x2048
  slices_S2048x4_o0_2_S2048x1 : S2048x4.Slices ![0, 2] S2048x1
  slices_S520x2048_o8_0_S512x2048 : S520x2048.Slices ![8, 0] S512x2048
  slices_S2048x4_o0_3_S2048x1 : S2048x4.Slices ![0, 3] S2048x1
  shapeCasts_S512x2048_S1x512x2048 : S512x2048.ShapeCasts S1x512x2048
  slices_S512x2048_o504_0_S8x2048 : S512x2048.Slices ![504, 0] S8x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4.size a ≤ S2048x4.size a
  hwx0_1 : ∀ i : grid0.Coords, EltTy.bits .f32 = 32 ∨ (Rect.block (s := S2048x4) S2048x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S4x4096x2048.size a
  hwx0_2 : ∀ i : grid0.Coords, EltTy.bits .f32 = 32 ∨ (Rect.block (s := S4x4096x2048) S1x512x2048.size (cc0_transform_2 i) (hinb0_2 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x4 : Shape := ⟨2, ![2048, 4]⟩
abbrev S_ : Shape := ⟨0, ![]⟩
abbrev S4x4099x2048 : Shape := ⟨3, ![4, 4099, 2048]⟩
abbrev S2048x1 : Shape := ⟨2, ![2048, 1]⟩
abbrev S2048 : Shape := ⟨1, ![2048]⟩
abbrev S1x1x2048 : Shape := ⟨3, ![1, 1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S_, .i32⟩
  | .hbm, ⟨3, _⟩ => ⟨S_, .f32⟩
  | .hbm, ⟨4, _⟩ => ⟨S4x4099x2048, .f32⟩
  | .hbm, ⟨5, _⟩ => ⟨S4x4096x2048, .f32⟩
  | .hbm, ⟨6, _⟩ => ⟨S2048x1, .f32⟩
  | .hbm, ⟨7, _⟩ => ⟨S2048, .f32⟩
  | .hbm, ⟨8, _⟩ => ⟨S1x1x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S2048x1, .f32⟩
  | .hbm, ⟨13, _⟩ => ⟨S2048, .f32⟩
  | .hbm, ⟨14, _⟩ => ⟨S1x1x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S2048x1, .f32⟩
  | .hbm, ⟨20, _⟩ => ⟨S2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S2048x1, .f32⟩
  | .hbm, ⟨27, _⟩ => ⟨S2048, .f32⟩
  | .hbm, ⟨28, _⟩ => ⟨S1x1x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  pads_S4x4096x2048_S4x4099x2048_000_300_000 : S4x4096x2048.Pads (![0, 3, 0] : Fin 3 → Nat) ![0, 0, 0] ![0, 0, 0] S4x4099x2048
  h_S_ : 0 < S_.numel
  slices_S4x4099x2048_S4x4096x2048_0_0_0 : S4x4099x2048.Slices ![0, 0, 0] S4x4096x2048
  slices_S2048x4_S2048x1_0_0 : S2048x4.Slices ![0, 0] S2048x1
  shapeCasts_S2048x1_S2048 : S2048x1.ShapeCasts S2048
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  slices_S4x4099x2048_S4x4096x2048_0_1_0 : S4x4099x2048.Slices ![0, 1, 0] S4x4096x2048
  slices_S2048x4_S2048x1_0_1 : S2048x4.Slices ![0, 1] S2048x1
  slices_S4x4099x2048_S4x4096x2048_0_2_0 : S4x4099x2048.Slices ![0, 2, 0] S4x4096x2048
  slices_S2048x4_S2048x1_0_2 : S2048x4.Slices ![0, 2] S2048x1
  slices_S4x4099x2048_S4x4096x2048_0_3_0 : S4x4099x2048.Slices ![0, 3, 0] S4x4096x2048
  slices_S2048x4_S2048x1_0_3 : S2048x4.Slices ![0, 3] S2048x1
  bcast_S_S4x4096x2048 : S_.BroadcastsInDim S4x4096x2048 (![] : Fin 0 → Fin S4x4096x2048.rank)

variable [Facts₀]

class Facts : Prop extends Facts₀ where

variable [Facts]
-- ==== Proof.Spec.lean ====
/-
  Depthwise causal convolution with four taps, followed by SiLU, as ONE function of the two argument arrays.

  For a batch `b`, a time `t` and a channel `d` the result is `s · σ(s)`, where
  `s = ((x̃ t · w d 0 + x̃ (t+1) · w d 1) + x̃ (t+2) · w d 2) + x̃ (t+3) · w d 3`,
  `x̃ s` is row `s - 3` of `x` (batch `b`, channel `d`) and zero for `s < 3` — the three zero rows a causal
  convolution puts in front of the sequence —, and `σ s = 1 / (1 + e^(-s))`. The sum is added up left to right,
  the order both programs use, so no law of the extended reals beyond reading each side at an index is needed.
-/
import Idealize.ShloMosaic.PureOps.Ideal
import Idealize.ShloMosaic.Lib.ValueIdx

noncomputable section

namespace Cert.CausalConv

open Idealize.ShloMosaic Idealize.ShloMosaic.ValueIdx

/-- The sequence array: batch, time, channel. -/
abbrev XArr : Type := FVec Ideal ⟨3, ![4, 4096, 2048]⟩ .f32
/-- The taps: channel, tap. -/
abbrev WArr : Type := FVec Ideal ⟨2, ![2048, 4]⟩ .f32

/-- Row `s` of the sequence with three zero rows put in front: zero for `s < 3`, row `s - 3` of `x` from there on
    (and zero past the end, which no result reads). -/
def shifted (x : XArr) (b : Fin 4) (s : ℕ) (d : Fin 2048) : Ideal .f32 :=
  if h : 3 ≤ s ∧ s - 3 < 4096 then x (ix3 b ⟨s - 3, h.2⟩ d) else 0

/-- In front of the sequence the shifted row is zero. -/
theorem shifted_front (x : XArr) (b : Fin 4) (s : ℕ) (d : Fin 2048) (hs : s < 3) : shifted x b s d = 0 := by
  unfold shifted
  rw [dif_neg (fun h => absurd h.1 (by omega))]

/-- From place three on the shifted row is the sequence's row three places earlier. -/
theorem shifted_row (x : XArr) (b : Fin 4) (s : ℕ) (d : Fin 2048) (k : Fin 4096) (hk : k.val + 3 = s) :
    shifted x b s d = x (ix3 b k d) := by
  unfold shifted
  have h : 3 ≤ s ∧ s - 3 < 4096 := ⟨by omega, by have := k.isLt; omega⟩
  rw [dif_pos h]
  exact congrArg (fun r => x (ix3 b r d)) (Fin.ext (by show s - 3 = k.val; omega))

/-- The four-tap sum at time `t`, added up left to right. -/
def conv (x : XArr) (w : WArr) (b : Fin 4) (t : ℕ) (d : Fin 2048) : Ideal .f32 :=
  ((shifted x b t d * w (ix2 d (0 : Fin 4)) + shifted x b (t + 1) d * w (ix2 d (1 : Fin 4)))
      + shifted x b (t + 2) d * w (ix2 d (2 : Fin 4)))
    + shifted x b (t + 3) d * w (ix2 d (3 : Fin 4))

/-- SiLU of an extended real: the number times its logistic. -/
def silu (s : Ideal .f32) : Ideal .f32 := s * Ideal.logistic s

/-- The whole result array: SiLU of the four-tap causal sum, at every batch, time and channel. -/
def G (x : XArr) (w : WArr) : XArr := fun i => silu (conv x w (i 0) (i 1).val (i 2))

/-- `G` at an index given by its coordinates. -/
theorem G_apply (x : XArr) (w : WArr) (b : Fin 4) (t : Fin 4096) (d : Fin 2048) :
    G x w (ix3 b t d) = silu (conv x w b t.val d) := rfl

end Cert.CausalConv

end
-- ==== Proof.RefValue.lean ====
/-
  The reference's result, read at an index, is the specification `G`.

  The reference pads the sequence with three zero rows in front (the pad value is the integer zero converted, which
  is the real zero), cuts four windows of 4096 rows at offsets 0, 1, 2, 3 out of the padded array, multiplies window
  `j` by column `j` of the taps broadcast over batch and time, adds the four products left to right, and multiplies
  the sum `s` by `1 / (1 + e^(-s))`. Window `j` at time `t` is the padded array's row `t + j`, which is
  `shifted x b (t + j) d`; the quotient is the logistic function by its definition.
-/
import proofs.«142087_j12781822672943_1_alg».proof.Proof.Spec
import proofs.«142087_j12781822672943_1_alg».proof.Proof.Gen.ReferenceIdeal.Read
import Idealize.ShloMosaic.Lib.KernelVsHost
import Idealize.ShloMosaic.Lib.IdealHost
import Idealize.ShloMosaic.Lib.ValueIdx

noncomputable section

namespace Cert.CausalConv.Ref

open Idealize.ShloMosaic Idealize.ShloMosaic.ValueIdx
open Cert.ReferenceIdeal Cert.ReferenceIdeal.Gen Cert.ReferenceIdeal.Read Cert.CausalConv

/-- The padded array at any index: the shifted row. In front of the sequence the pad value, the integer zero
    converted; from row three on the sequence's row three places earlier. -/
theorem padded_read (x : XArr) (j : S4x4099x2048.Idx) :
    val_main_v0 (F := Ideal) x j = shifted x (j 0) (j 1).val (j 2) := by
  unfold val_main_v0
  by_cases h : (j 1).val < 3
  · rw [shifted_front x (j 0) (j 1).val (j 2) h]
    refine (pad_apply_of_not_inside ![0, 3, 0] ![0, 0, 0] ![0, 0, 0] x (val_main_call0_v0 (F := Ideal))
      pads_S4x4096x2048_S4x4099x2048_000_300_000 h_S_ j (1 : Fin 3) ?_).trans ?_
    · intro hc
      have h3 : 3 ≤ (j 1).val := hc.1
      omega
    · exact sitofp_zero
  · have hlt : (j 1).val < 4099 := (j 1).isLt
    have hk : (j 1).val - 3 < 4096 := by omega
    rw [shifted_row x (j 0) (j 1).val (j 2) ⟨(j 1).val - 3, hk⟩ (by show (j 1).val - 3 + 3 = (j 1).val; omega)]
    exact pad_apply_of_inside ![0, 3, 0] ![0, 0, 0] ![0, 0, 0] x (val_main_call0_v0 (F := Ideal))
      pads_S4x4096x2048_S4x4099x2048_000_300_000 h_S_ j (ix3 (j 0) ⟨(j 1).val - 3, hk⟩ (j 2)) (fun a => match a with
        | ⟨0, _⟩ => by show (j 0).val = 0 + (j 0).val * (0 + 1); omega
        | ⟨1, _⟩ => by show (j 1).val = 3 + ((j 1).val - 3) * (0 + 1); omega
        | ⟨2, _⟩ => by show (j 2).val = 0 + (j 2).val * (0 + 1); omega)

/-- Column 0 of the taps, broadcast over batch and time, at an index: the tap of the index's channel. -/
theorem tap0 (w : WArr) (i : S4x4096x2048.Idx) : val_main_v5 (F := Ideal) w i = w (ix2 (i 2) (0 : Fin 4)) := by
  rw [val_main_v5_apply, val_main_v4_apply, val_main_v3_apply, val_main_v2_apply]
  exact congrArg w (funext fun a => match a with
    | ⟨0, _⟩ => Fin.ext (Nat.div_one _)
    | ⟨1, _⟩ => Fin.ext rfl)

/-- Column 1. -/
theorem tap1 (w : WArr) (i : S4x4096x2048.Idx) : val_main_v11 (F := Ideal) w i = w (ix2 (i 2) (1 : Fin 4)) := by
  rw [val_main_v11_apply, val_main_v10_apply, val_main_v9_apply, val_main_v8_apply]
  exact congrArg w (funext fun a => match a with
    | ⟨0, _⟩ => Fin.ext (Nat.div_one _)
    | ⟨1, _⟩ => Fin.ext rfl)

/-- Column 2. -/
theorem tap2 (w : WArr) (i : S4x4096x2048.Idx) : val_main_v18 (F := Ideal) w i = w (ix2 (i 2) (2 : Fin 4)) := by
  rw [val_main_v18_apply, val_main_v17_apply, val_main_v16_apply, val_main_v15_apply]
  exact congrArg w (funext fun a => match a with
    | ⟨0, _⟩ => Fin.ext (Nat.div_one _)
    | ⟨1, _⟩ => Fin.ext rfl)

/-- Column 3. -/
theorem tap3 (w : WArr) (i : S4x4096x2048.Idx) : val_main_v25 (F := Ideal) w i = w (ix2 (i 2) (3 : Fin 4)) := by
  rw [val_main_v25_apply, val_main_v24_apply, val_main_v23_apply, val_main_v22_apply]
  exact congrArg w (funext fun a => match a with
    | ⟨0, _⟩ => Fin.ext (Nat.div_one _)
    | ⟨1, _⟩ => Fin.ext rfl)

/-- The four windows times the four tap columns, added left to right: the four-tap sum at the index. -/
theorem sum_read (x : XArr) (w : WArr) (i : S4x4096x2048.Idx) :
    val_main_v27 (F := Ideal) x w i = conv x w (i 0) (i 1).val (i 2) := by
  rw [val_main_v27_apply, val_main_v20_apply, val_main_v13_apply, val_main_v6_apply, val_main_v12_apply,
    val_main_v19_apply, val_main_v26_apply, val_main_v1_apply, val_main_v7_apply, val_main_v14_apply,
    val_main_v21_apply, padded_read, padded_read, padded_read, padded_read, tap0, tap1, tap2, tap3]
  unfold conv
  simp only [Ideal.addf_def, Ideal.mulf_def]
  show ((shifted x (i 0) (i 1).val (i 2) * _ + shifted x (i 0) (1 + (i 1).val) (i 2) * _)
      + shifted x (i 0) (2 + (i 1).val) (i 2) * _) + shifted x (i 0) (3 + (i 1).val) (i 2) * _ = _
  rw [Nat.add_comm 1, Nat.add_comm 2, Nat.add_comm 3]

/-- THE REFERENCE IS `G`: the sum `s` times one over one plus `e^(-s)` is `s` times its logistic. -/
theorem result_eq (x : XArr) (w : WArr) : val_main_v28 (F := Ideal) x w = G x w := by
  funext i
  rw [val_main_v28_apply, val_main_call1_v5_apply, val_main_call1_v4_apply, val_main_call1_cst_0_apply,
    val_main_call1_v3_apply, val_main_call1_v2_apply, val_main_call1_cst_apply, val_main_call1_v1_apply,
    val_main_call1_v0_apply, sum_read]
  show _ = silu (conv x w (i 0) (i 1).val (i 2))
  unfold silu
  simp only [Ideal.ofBits_def, Ideal.ofBits_one_f32]
  rfl

end Cert.CausalConv.Ref

end
-- ==== Proof.Pieces.lean ====
/-
  What one run of the kernel body leaves in its output block and in the rows it carries to the next tile, as pure
  functions of what it loaded — at any float instance.

  The body has two cases. At the first tile of a batch it first stores zeros to the eight carried rows and then loads
  them back, so the rows in front of the tile are zeros; at any later tile it loads the eight rows the tile before
  left. In both cases the output block is the body's arithmetic (`k0_pay4`) of the tile, those eight rows and the
  taps, and the carried rows END as the tile's last eight rows (`k0_pay5`): the update is the last store and it
  covers the whole buffer, whatever the reset stored before it.
-/
import proofs.«142087_j12781822672943_1_alg».proof.Proof.Gen.KernelIdeal.Frame
import Idealize.ShloMosaic.Lib.Pipeline.Value

set_option maxRecDepth 16384

noncomputable section

namespace Cert.CausalConv.Pieces

open Idealize.ShloMosaic Idealize.ShloMosaic.TcCoe Idealize.ShloMosaic.Tactic Idealize.SL.Sem
open Cert.KernelIdeal Cert.KernelIdeal.Gen

variable {F : FTy → Type} [FloatOps F]

/-- The offsets of a whole rank-2 buffer are zero. -/
theorem hz2 : (![0, 0] : Fin 2 → Nat) = fun _ => 0 := funext fun a => by fin_cases a <;> rfl
/-- The offsets of a whole rank-3 buffer are zero. -/
theorem hz3 : (![0, 0, 0] : Fin 3 → Nat) = fun _ => 0 := funext fun a => by fin_cases a <;> rfl

/-- A later tile: the carried rows end as the last eight rows of the tile. -/
theorem carry_B (c : Dev nD) (i : grid0.Coords) (a2 : Memref sig .tc .vmem S1x512x2048 .f32) (h2 : a2.IsWhole) (a3 : Memref sig .tc .vmem S2048x4 .f32) (h3 : a3.IsWhole) (a4 : Memref sig .tc .vmem S1x512x2048 .f32) (h4 : a4.IsWhole) (a5 : Memref sig .tc .vmem S8x2048 .f32) (h5 : a5.IsWhole) (hc : ¬cond0_0 i)
    (x0 : Vec F S1x512x2048 .f32) (x1 : Vec F S2048x4 .f32) (xs0 : Vec F S8x2048 .f32) :
    sout0_B_0 c i a2 h2 a3 h3 a4 h4 a5 h5 hc x0 x1 xs0 = k0_pay1 (k0_pay5 x0) := by
  unfold sout0_B_0
  rw [View.read_writes_eq_canon _ _ _ (scover0_B_0 c i a2 h2 a3 h3 a4 h4 a5 h5 hc x0 x1 xs0)]
  unfold kernelRun0_B
  dsimp only
  sl_unfold_words
  rw [View.canon_unit_zero hz2]
  simp only [View.readAt_eq_ld, h2.read_unread, View.ld_unit_zero (S := S1x512x2048) hz3]

/-- A later tile: the output block is the body's arithmetic of the tile, the rows the tile before left, and the taps. -/
theorem out_B (c : Dev nD) (i : grid0.Coords) (a2 : Memref sig .tc .vmem S1x512x2048 .f32) (h2 : a2.IsWhole) (a3 : Memref sig .tc .vmem S2048x4 .f32) (h3 : a3.IsWhole) (a4 : Memref sig .tc .vmem S1x512x2048 .f32) (h4 : a4.IsWhole) (a5 : Memref sig .tc .vmem S8x2048 .f32) (h5 : a5.IsWhole) (hc : ¬cond0_0 i)
    (x0 : Vec F S1x512x2048 .f32) (x1 : Vec F S2048x4 .f32) (xs0 : Vec F S8x2048 .f32) :
    out0_B_2 c i a2 h2 a3 h3 a4 h4 a5 h5 hc x0 x1 xs0 = k0_pay4 x0 xs0 x1 := by
  unfold out0_B_2
  rw [View.read_writes_eq_canon _ _ _ (cover0_B_2 c i a2 h2 a3 h3 a4 h4 a5 h5 hc x0 x1 xs0)]
  unfold kernelRun0_B
  dsimp only
  sl_unfold_words
  rw [View.canon_unit_zero hz3]
  simp only [View.readAt_eq_ld, h2.read_unread, h3.read_unread, h5.read_unread,
    View.ld_unit_zero (S := S1x512x2048) hz3, View.ld_unit_zero (S := S8x2048) hz2, View.ld_unit_zero (S := S2048x4) hz2]

/-- A first tile: the carried rows end as the last eight rows of the tile, the reset stored before them covered. -/
theorem carry_A (c : Dev nD) (i : grid0.Coords) (a2 : Memref sig .tc .vmem S1x512x2048 .f32) (h2 : a2.IsWhole) (a3 : Memref sig .tc .vmem S2048x4 .f32) (h3 : a3.IsWhole) (a4 : Memref sig .tc .vmem S1x512x2048 .f32) (h4 : a4.IsWhole) (a5 : Memref sig .tc .vmem S8x2048 .f32) (h5 : a5.IsWhole) (hc : cond0_0 i)
    (x0 : Vec F S1x512x2048 .f32) (x1 : Vec F S2048x4 .f32) :
    sout0_A_0 c i a2 h2 a3 h3 a4 h4 a5 h5 hc x0 x1 = k0_pay1 (k0_pay5 x0) := by
  unfold sout0_A_0
  rw [View.read_writes_eq_canon _ _ _ (scover0_A_0 c i a2 h2 a3 h3 a4 h4 a5 h5 hc x0 x1)]
  unfold kernelRun0_A
  dsimp only
  sl_unfold_words
  rw [View.canon_cons_unit_zero (S := S8x2048) hz2]
  simp only [View.readAt_eq_ld, h2.read_unread, View.ld_unit_zero (S := S1x512x2048) hz3]

/-- A first tile: the output block is the body's arithmetic of the tile, the zeros the reset stored, and the taps. -/
theorem out_A (c : Dev nD) (i : grid0.Coords) (a2 : Memref sig .tc .vmem S1x512x2048 .f32) (h2 : a2.IsWhole) (a3 : Memref sig .tc .vmem S2048x4 .f32) (h3 : a3.IsWhole) (a4 : Memref sig .tc .vmem S1x512x2048 .f32) (h4 : a4.IsWhole) (a5 : Memref sig .tc .vmem S8x2048 .f32) (h5 : a5.IsWhole) (hc : cond0_0 i)
    (x0 : Vec F S1x512x2048 .f32) (x1 : Vec F S2048x4 .f32) :
    out0_A_2 c i a2 h2 a3 h3 a4 h4 a5 h5 hc x0 x1 = k0_pay4 x0 (k0_pay2 (F := F)) x1 := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz3]
  simp only [View.readAt_eq_ld, h2.read_unread, h3.read_unread, View.readCov_unit_zero (S := S8x2048) _ hz2,
    View.ld_unit_zero (S := S1x512x2048) hz3, View.ld_unit_zero (S := S2048x4) hz2]

end Cert.CausalConv.Pieces

end
-- ==== Proof.Payload.lean ====
/-
  The kernel body's arithmetic read at an index, on the extended reals.

  The body lays the eight rows carried in (`cin`) in front of the tile's 512 rows (`x0`), cuts four windows of 512
  rows at offsets 5, 6, 7, 8 out of those 520 rows, multiplies window `5 + j` by column `j` of the taps broadcast down
  the rows, adds the four products left to right, and multiplies the sum by its logistic. Row `r` of window `o` is
  row `o + r` of the 520: one of the carried rows when `o + r < 8`, row `o + r - 8` of the tile otherwise.
  So the output block at row `r`, channel `d` is SiLU of the four-tap sum over rows `5 + r .. 8 + r` of the 520.
  Also here: the reset stores zeros, and what the body carries out is the tile's last eight rows.
-/
import proofs.«142087_j12781822672943_1_alg».proof.Proof.Spec
import proofs.«142087_j12781822672943_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.CausalConv.Payload

open Idealize.ShloMosaic Idealize.ShloMosaic.ValueIdx
open Cert.KernelIdeal Cert.KernelIdeal.Gen Cert.CausalConv

variable (x0 : Vec Ideal S1x512x2048 .f32) (cin : Vec Ideal S8x2048 .f32) (wv : Vec Ideal S2048x4 .f32)

/-- Row `i` of the 520 rows: a carried row for `i < 8`, row `i - 8` of the tile from there on. -/
def rowsAt (i : ℕ) (d : Fin 2048) : Ideal .f32 :=
  if h : i < 8 then cin (ix2 ⟨i, h⟩ d) else if h' : i - 8 < 512 then x0 (ix3 (0 : Fin 1) ⟨i - 8, h'⟩ d) else 0

theorem rowsAt_front (i : ℕ) (d : Fin 2048) (h : i < 8) : rowsAt x0 cin i d = cin (ix2 ⟨i, h⟩ d) := by
  unfold rowsAt; rw [dif_pos h]

theorem rowsAt_tile (i : ℕ) (d : Fin 2048) (k : Fin 512) (hk : k.val + 8 = i) :
    rowsAt x0 cin i d = x0 (ix3 (0 : Fin 1) k d) := by
  unfold rowsAt
  have h1 : ¬ i < 8 := by omega
  have h2 : i - 8 < 512 := by have := k.isLt; omega
  rw [dif_neg h1, dif_pos h2]
  exact congrArg (fun q => x0 (ix3 (0 : Fin 1) q d)) (Fin.ext (by show i - 8 = k.val; omega))

/-- The 520 rows: the carried rows, then the tile. -/
def cat : FVec Ideal S520x2048 .f32 :=
  concatenate S520x2048 0 [⟨S8x2048, cin⟩, ⟨S512x2048, k0_pay3 x0⟩] concatenates_S8x2048_S512x2048_S520x2048_d0

theorem cat_apply (i : Fin 520) (d : Fin 2048) : cat x0 cin (ix2 i d) = rowsAt x0 cin i.val d := by
  unfold cat
  by_cases h : i.val < 8
  · rw [rowsAt_front x0 cin i.val d h]
    exact concatenate_pair_apply_left _ cin (k0_pay3 x0) _ (ix2 i d) rfl (ix2 ⟨i.val, h⟩ d)
      (fun b => match b with | ⟨0, _⟩ => rfl | ⟨1, _⟩ => rfl)
  · have hk : i.val - 8 < 512 := by have := i.isLt; omega
    rw [rowsAt_tile x0 cin i.val d ⟨i.val - 8, hk⟩ (by show i.val - 8 + 8 = i.val; omega)]
    refine (concatenate_pair_apply_right _ cin (k0_pay3 x0) _ (ix2 i d) rfl rfl (ix2 ⟨i.val - 8, hk⟩ d)
      (fun b hb => match b, hb with
        | ⟨0, _⟩, hb => (hb (Fin.ext rfl)).elim
        | ⟨1, _⟩, _ => rfl)
      (by show i.val - 8 + 8 = i.val; omega)).trans ?_
    unfold k0_pay3
    exact shapeCast_1ab_ab_apply x0 _ ⟨i.val - 8, hk⟩ d

/-- The window of 512 rows at offset `o`. -/
def win (o : ℕ) (h : S520x2048.Slices ![o, 0] S512x2048) : FVec Ideal S512x2048 .f32 :=
  extractStridedSlice S512x2048 ![o, 0] (cat x0 cin) h

theorem win_apply (o : ℕ) (h : S520x2048.Slices ![o, 0] S512x2048) (ho : o ≤ 8) (r : Fin 512) (d : Fin 2048) :
    win x0 cin o h (ix2 r d) = rowsAt x0 cin (o + r.val) d := by
  unfold win
  have hr := r.isLt
  refine (slice2_axis0_apply o (cat x0 cin) h r d ⟨o + r.val, by omega⟩ rfl).trans ?_
  exact cat_apply x0 cin ⟨o + r.val, by omega⟩ d

/-- Column `o` of the taps as a row over the channels, broadcast down the 512 rows. -/
def col (o : ℕ) (h : S2048x4.Slices ![0, o] S2048x1) : FVec Ideal S512x2048 .f32 :=
  broadcastTo S512x2048 (shapeCast S1x2048 (shapeCast S2048 (extractStridedSlice S2048x1 ![0, o] wv h)
    shapeCasts_S2048x1_S2048) shapeCasts_S2048_S1x2048) broadcasts_S1x2048_S512x2048

theorem col_apply (o : ℕ) (h : S2048x4.Slices ![0, o] S2048x1) (j : Fin 4) (hj : j.val = o) (r : Fin 512) (d : Fin 2048) :
    col wv o h (ix2 r d) = wv (ix2 d j) := by
  unfold col
  refine (broadcastTo_1b_ab_apply _ _ r d).trans ?_
  refine (shapeCast_a_1a_apply _ _ (0 : Fin 1) d).trans ?_
  refine (shapeCast_apply _ shapeCasts_S2048x1_S2048 (ix1 d) (ix2 d (0 : Fin 1)) (by
    rw [Shape.rowMajor_val_two, Shape.rowMajor_val_one]
    show d.val * 1 + 0 = d.val
    omega)).trans ?_
  exact slice2_axis1_apply o wv h d (0 : Fin 1) j (by show j.val = o + 0; omega)

/-- The four-tap sum, as an array over the tile's rows and the channels. -/
def pre : FVec Ideal S512x2048 .f32 :=
  addf (addf (addf (mulf (win x0 cin 5 slices_S520x2048_o5_0_S512x2048) (col wv 0 slices_S2048x4_o0_0_S2048x1))
      (mulf (win x0 cin 6 slices_S520x2048_o6_0_S512x2048) (col wv 1 slices_S2048x4_o0_1_S2048x1)))
      (mulf (win x0 cin 7 slices_S520x2048_o7_0_S512x2048) (col wv 2 slices_S2048x4_o0_2_S2048x1)))
      (mulf (win x0 cin 8 slices_S520x2048_o8_0_S512x2048) (col wv 3 slices_S2048x4_o0_3_S2048x1))

/-- The body's output payload is the sum times its logistic, given a leading unit axis. -/
theorem pay4_form : k0_pay4 x0 cin wv
    = shapeCast S1x512x2048 (mulf (pre x0 cin wv) (logistic (pre x0 cin wv))) shapeCasts_S512x2048_S1x512x2048 := rfl

theorem pre_apply (r : Fin 512) (d : Fin 2048) :
    pre x0 cin wv (ix2 r d)
      = ((rowsAt x0 cin (5 + r.val) d * wv (ix2 d (0 : Fin 4)) + rowsAt x0 cin (6 + r.val) d * wv (ix2 d (1 : Fin 4)))
          + rowsAt x0 cin (7 + r.val) d * wv (ix2 d (2 : Fin 4)))
        + rowsAt x0 cin (8 + r.val) d * wv (ix2 d (3 : Fin 4)) := by
  unfold pre
  rw [addf_apply, addf_apply, addf_apply, mulf_apply, mulf_apply, mulf_apply, mulf_apply,
    win_apply x0 cin 5 _ (by decide) r d, win_apply x0 cin 6 _ (by decide) r d,
    win_apply x0 cin 7 _ (by decide) r d, win_apply x0 cin 8 _ (by decide) r d,
    col_apply wv 0 _ (0 : Fin 4) rfl r d, col_apply wv 1 _ (1 : Fin 4) rfl r d,
    col_apply wv 2 _ (2 : Fin 4) rfl r d, col_apply wv 3 _ (3 : Fin 4) rfl r d]

/-- THE OUTPUT BLOCK AT AN INDEX: SiLU of the four-tap sum over rows `5 + r .. 8 + r` of the 520. -/
theorem out_apply (u : Fin 1) (r : Fin 512) (d : Fin 2048) :
    k0_pay4 x0 cin wv (ix3 u r d)
      = silu (((rowsAt x0 cin (5 + r.val) d * wv (ix2 d (0 : Fin 4)) + rowsAt x0 cin (6 + r.val) d * wv (ix2 d (1 : Fin 4)))
          + rowsAt x0 cin (7 + r.val) d * wv (ix2 d (2 : Fin 4)))
        + rowsAt x0 cin (8 + r.val) d * wv (ix2 d (3 : Fin 4))) := by
  rw [pay4_form]
  refine (shapeCast_ab_1ab_apply _ _ u r d).trans ?_
  rw [← pre_apply x0 cin wv r d]
  rfl

/-- The reset stores zeros. -/
theorem zeros_apply (j : S8x2048.Idx) : k0_pay2 (F := Ideal) j = 0 := by
  unfold k0_pay2
  show shapeCast S8x2048 (broadcast S8x2048 (Scalar.ofBits .f32 0x00000000#32)) shapeCasts_S8x2048_S8x2048 j = 0
  rw [shapeCast_self]
  exact Ideal.ofBits_zero_f32

/-- What the body carries out: row `i` of the eight is row `504 + i` of the tile. -/
theorem tail_apply (i : Fin 8) (d : Fin 2048) (k : Fin 512) (hk : k.val = 504 + i.val) :
    k0_pay1 (k0_pay5 x0) (ix2 i d) = x0 (ix3 (0 : Fin 1) k d) := by
  unfold k0_pay1 k0_pay5 k0_pay3
  show shapeCast S8x2048 (extractStridedSlice S8x2048 ![504, 0] (shapeCast S512x2048 x0 shapeCasts_S1x512x2048_S512x2048)
    slices_S512x2048_o504_0_S8x2048) shapeCasts_S8x2048_S8x2048 (ix2 i d) = _
  rw [shapeCast_self]
  refine (slice2_axis0_apply 504 _ _ i d k hk).trans ?_
  exact shapeCast_1ab_ab_apply x0 _ k d

end Cert.CausalConv.Payload

end
-- ==== Proof.KernelValue.lean ====
/-
  The idealized kernel's result array is the specification `G` of its two argument arrays.

  The grid has 4 × 8 points, point `t` handling batch `t / 8` and tile `t % 8` (512 rows). The rows the body carries
  out of a point are the last eight rows of that point's tile, whichever case ran: so what a later tile of a batch
  finds in front of it are rows `512 l - 8 .. 512 l - 1` of the same batch, and a first tile finds zeros. Either way
  row `i ≥ 5` of the eight is the sequence shifted by three places, `shifted x b (512 l + i - 5)`, and the 520 rows
  the body cuts its windows from are `shifted x b (512 l + i - 5)` for every `i ≥ 5`. Hence the block point `t` writes
  back is block `t` of `G`; the 32 blocks tile the result array; and the array ends as `G`.
-/
import proofs.«142087_j12781822672943_1_alg».proof.Proof.Spec
import proofs.«142087_j12781822672943_1_alg».proof.Proof.Pieces
import proofs.«142087_j12781822672943_1_alg».proof.Proof.Payload
import proofs.«142087_j12781822672943_1_alg».proof.Proof.Gen.KernelIdeal.Value
import Idealize.ShloMosaic.Lib.Pipeline.Value
import Idealize.ShloMosaic.Lib.ValueIdx

set_option maxRecDepth 16384

noncomputable section

namespace Cert.CausalConv.Kernel

open Idealize.ShloMosaic Idealize.ShloMosaic.TcCoe Idealize.SL.Sem Idealize.ShloMosaic.ValueIdx
open Idealize.ShloMosaic.Pipeline (Dat)
open Cert.KernelIdeal Cert.KernelIdeal.Gen Cert.CausalConv

variable (m : (ℓ : Loc nD τ sig) → Buf (Elt Ideal) ℓ) (ρ : Dev nD → PrngReg)

/-- The sequence and the taps as the region finds them, and a point's two input blocks, at their literal types. -/
abbrev xarr (c : Dev nD) : XArr := V m c main_arg0
abbrev warr (c : Dev nD) : WArr := V m c main_arg1
abbrev xblk (c : Dev nD) (t : Fin cfg0.N) : Vec Ideal S1x512x2048 .f32 := iblk m c 0 t
abbrev wblk (c : Dev nD) (t : Fin cfg0.N) : Vec Ideal S2048x4 .f32 := iblk m c 1 t

/-- The printed index maps over the grid: the sequence's and the result's blocks are (batch `t / 8`, tile `t % 8`,
    all channels); the taps' block is the whole array. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 3) = t.val / 8 ∧ win0_2.index t (1 : Fin 3) = t.val % 8 ∧ win0_2.index t (2 : Fin 3) = 0 :=
  (by decide +kernel : ∀ t : Fin grid0.N, _)

/-- A tile's entry is the sequence's at batch `t / 8`, row `512 (t % 8) + r`. -/
theorem xblk_apply (c : Dev nD) (t : Fin cfg0.N) (u : Fin 1) (r : Fin 512) (d : Fin 2048) (b : Fin 4) (k : Fin 4096)
    (hb : b.val = t.val / 8) (hk : k.val = (t.val % 8) * 512 + r.val) :
    xblk m c t (ix3 u r d) = xarr m c (ix3 b k d) := by
  obtain ⟨e0, e1, e2, -⟩ := idx_facts t
  show xarr m c (((cfg0.win 0).blk t).view.emb (ix3 u r d)) = xarr m c (ix3 b k d)
  refine congrArg (xarr m c) (funext fun a => Fin.ext ?_)
  match a with
  | ⟨0, _⟩ => show win0_0.index t (0 : Fin 3) * 1 + 1 * u.val = b.val; have := u.isLt; omega
  | ⟨1, _⟩ => show win0_0.index t (1 : Fin 3) * 512 + 1 * r.val = k.val; omega
  | ⟨2, _⟩ => show win0_0.index t (2 : Fin 3) * 2048 + 1 * d.val = d.val; omega

/-- The taps' block is the taps. -/
theorem wblk_apply (c : Dev nD) (t : Fin cfg0.N) (d : Fin 2048) (j : Fin 4) :
    wblk m c t (ix2 d j) = warr m c (ix2 d j) := by
  obtain ⟨-, -, -, e0, e1, -⟩ := idx_facts t
  show warr m c (((cfg0.win 1).blk t).view.emb (ix2 d j)) = warr m c (ix2 d j)
  refine congrArg (warr m c) (funext fun a => Fin.ext ?_)
  match a with
  | ⟨0, _⟩ => show win0_1.index t (0 : Fin 2) * 2048 + 1 * d.val = d.val; omega
  | ⟨1, _⟩ => show win0_1.index t (1 : Fin 2) * 4 + 1 * j.val = j.val; omega

/-- WHAT EVERY POINT CARRIES OUT: the last eight rows of its own tile, in either case. -/
theorem carry_eq (c : Dev nD) (n : ℕ) (hn : n < cfg0.N) :
    (outsAt0 m c n hn).2 = k0_pay1 (k0_pay5 (xblk m c ⟨n, hn⟩)) := by
  by_cases h0 : n % 8 = 0
  · rw [outsAt0_A m c ⟨n, hn⟩ h0]; dsimp only
    exact Pieces.carry_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) ((hcond0_0 ⟨n, hn⟩).mpr h0) (iblk m c 0 ⟨n, hn⟩) (iblk m c 1 ⟨n, hn⟩)
  · rw [outsAt0_B m c ⟨n, hn⟩ h0]; dsimp only
    exact Pieces.carry_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) (iblk m c 0 ⟨n, hn⟩) (iblk m c 1 ⟨n, hn⟩)
      (outsAt0 m c (n - 1) (Nat.lt_of_le_of_lt (Nat.sub_le _ _) hn)).2

/-- The eight rows a point finds in front of its tile: zeros at a batch's first tile, else the last eight rows of
    the tile before. -/
def cin (c : Dev nD) (t : Fin cfg0.N) : Vec Ideal S8x2048 .f32 :=
  if t.val % 8 = 0 then k0_pay2 (F := Ideal)
  else k0_pay1 (k0_pay5 (xblk m c ⟨t.val - 1, Nat.lt_of_le_of_lt (Nat.sub_le _ _) t.isLt⟩))

/-- WHAT EVERY POINT LEAVES IN ITS OUTPUT BLOCK: the body's arithmetic of its tile, those eight rows, and the taps. -/
theorem out_eq (c : Dev nD) (t : Fin cfg0.N) :
    (outsAt0 m c t.val t.isLt).1 = k0_pay4 (xblk m c t) (cin m c t) (wblk m c t) := by
  by_cases h0 : t.val % 8 = 0
  · rw [outsAt0_A m c t h0]; dsimp only
    unfold cin; rw [if_pos h0]
    exact Pieces.out_A (F := Ideal) c (grid0.coords t) (ms0_0 t) (hs0_0 t) (ms0_1 t) (hs0_1 t) (ms0_2 t) (hs0_2 t) scM0_0 (Memref.isWhole_whole _) ((hcond0_0 t).mpr h0) (iblk m c 0 t) (iblk m c 1 t)
  · rw [outsAt0_B m c t h0]; dsimp only
    rw [carry_eq m c (t.val - 1) (Nat.lt_of_le_of_lt (Nat.sub_le _ _) t.isLt)]
    unfold cin; rw [if_neg h0]
    exact Pieces.out_B (F := Ideal) c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t)
      (k0_pay1 (k0_pay5 (xblk m c ⟨t.val - 1, Nat.lt_of_le_of_lt (Nat.sub_le _ _) t.isLt⟩)))

/-- Row `i ≥ 5` of the eight rows in front of tile `t % 8` is the sequence shifted by three, at place `512 (t % 8) + i - 5`. -/
theorem cin_apply (c : Dev nD) (t : Fin cfg0.N) (i : Fin 8) (d : Fin 2048) (hi : 5 ≤ i.val) (b : Fin 4) (hb : b.val = t.val / 8)
    (s : ℕ) (hs : s + 5 = (t.val % 8) * 512 + i.val) :
    cin m c t (ix2 i d) = shifted (xarr m c) b s d := by
  have hN : t.val < 32 := lt_of_lt_of_eq t.isLt N_0
  have hi8 : i.val < 8 := i.isLt
  unfold cin
  by_cases h0 : t.val % 8 = 0
  · rw [if_pos h0, Payload.zeros_apply]
    exact (shifted_front (xarr m c) b s d (by omega)).symm
  · rw [if_neg h0]
    have hk : (t.val % 8 - 1) * 512 + 504 + i.val < 4096 := by omega
    refine (Payload.tail_apply (xblk m c ⟨t.val - 1, Nat.lt_of_le_of_lt (Nat.sub_le _ _) t.isLt⟩) i d
      ⟨504 + i.val, by omega⟩ rfl).trans ?_
    refine (xblk_apply m c ⟨t.val - 1, Nat.lt_of_le_of_lt (Nat.sub_le _ _) t.isLt⟩ (0 : Fin 1) ⟨504 + i.val, by omega⟩ d b
      ⟨(t.val % 8 - 1) * 512 + 504 + i.val, hk⟩ (by show b.val = (t.val - 1) / 8; omega)
      (by show (t.val % 8 - 1) * 512 + 504 + i.val = ((t.val - 1) % 8) * 512 + (504 + i.val); omega)).trans ?_
    exact (shifted_row (xarr m c) b s d ⟨(t.val % 8 - 1) * 512 + 504 + i.val, hk⟩
      (by show (t.val % 8 - 1) * 512 + 504 + i.val + 3 = s; omega)).symm

/-- Row `o + r` (`5 ≤ o ≤ 8`) of the 520 rows point `t` cuts its windows from is the shifted sequence at place
    `512 (t % 8) + r + o - 5`. -/
theorem rows_eq (c : Dev nD) (t : Fin cfg0.N) (b : Fin 4) (hb : b.val = t.val / 8) (r : Fin 512) (d : Fin 2048)
    (o : ℕ) (ho : 5 ≤ o) (ho' : o ≤ 8) (s : ℕ) (hs : s + 5 = (t.val % 8) * 512 + r.val + o) :
    Payload.rowsAt (xblk m c t) (cin m c t) (o + r.val) d = shifted (xarr m c) b s d := by
  have hN : t.val < 32 := lt_of_lt_of_eq t.isLt N_0
  have hr : r.val < 512 := r.isLt
  by_cases h : o + r.val < 8
  · rw [Payload.rowsAt_front (xblk m c t) (cin m c t) (o + r.val) d h]
    exact cin_apply m c t ⟨o + r.val, h⟩ d (by show 5 ≤ o + r.val; omega) b hb s (by show s + 5 = (t.val % 8) * 512 + (o + r.val); omega)
  · have hk : o + r.val - 8 < 512 := by omega
    have hk2 : (t.val % 8) * 512 + (o + r.val - 8) < 4096 := by omega
    rw [Payload.rowsAt_tile (xblk m c t) (cin m c t) (o + r.val) d ⟨o + r.val - 8, hk⟩ (by show o + r.val - 8 + 8 = o + r.val; omega)]
    refine (xblk_apply m c t (0 : Fin 1) ⟨o + r.val - 8, hk⟩ d b ⟨(t.val % 8) * 512 + (o + r.val - 8), hk2⟩ hb rfl).trans ?_
    exact (shifted_row (xarr m c) b s d ⟨(t.val % 8) * 512 + (o + r.val - 8), hk2⟩
      (by show (t.val % 8) * 512 + (o + r.val - 8) + 3 = s; omega)).symm

/-- THE OUTPUT BLOCK OF POINT `t` AT AN INDEX is `G` at batch `t / 8`, row `512 (t % 8) + r`. -/
theorem block_apply (c : Dev nD) (t : Fin cfg0.N) (y : S1x512x2048.Idx) (b : Fin 4) (k : Fin 4096)
    (hb : b.val = t.val / 8) (hk : k.val = (t.val % 8) * 512 + (y 1).val) :
    (outsAt0 m c t.val t.isLt).1 y = G (xarr m c) (warr m c) (ix3 b k (y 2)) := by
  obtain ⟨u, r, d, rfl⟩ : ∃ (u : Fin 1) (r : Fin 512) (d : Fin 2048), y = ix3 u r d := ⟨y 0, y 1, y 2, eq_ix3 y⟩
  have hk' : k.val = (t.val % 8) * 512 + r.val := hk
  rw [out_eq m c t, Payload.out_apply, G_apply]
  show _ = silu (conv (xarr m c) (warr m c) b k.val d)
  unfold conv
  rw [rows_eq m c t b hb r d 5 (by decide) (by decide) k.val (by omega),
    rows_eq m c t b hb r d 6 (by decide) (by decide) (k.val + 1) (by omega),
    rows_eq m c t b hb r d 7 (by decide) (by decide) (k.val + 2) (by omega),
    rows_eq m c t b hb r d 8 (by decide) (by decide) (k.val + 3) (by omega),
    wblk_apply, wblk_apply, wblk_apply, wblk_apply]

/-- WHAT POINT `t` WRITES BACK is block `t` of `G` of the argument arrays. -/
theorem flushed_eq (c : Dev nD) (t : Fin cfg0.N) :
    (dats m 0 c).flushed 2 t = ((cfg0.win 2).blk t).view.read (Elt Ideal) (G (xarr m c) (warr m c)) := by
  rw [Value.flushed2]
  funext y
  obtain ⟨-, -, -, -, -, e0, e1, e2⟩ := idx_facts t
  have hN : t.val < 32 := lt_of_lt_of_eq t.isLt N_0
  have hy0 : (y 0).val < 1 := (y 0).isLt
  have hy1 : (y 1).val < 512 := (y 1).isLt
  have hkk : (t.val % 8) * 512 + (y 1).val < 4096 := by omega
  show (outsAt0 m c t.val t.isLt).1 y = G (xarr m c) (warr m c) (((cfg0.win 2).blk t).view.emb y)
  refine (block_apply m c t y ⟨t.val / 8, by omega⟩ ⟨(t.val % 8) * 512 + (y 1).val, hkk⟩ rfl rfl).trans ?_
  refine congrArg (G (xarr m c) (warr m c)) (funext fun a => Fin.ext ?_)
  match a with
  | ⟨0, _⟩ => show t.val / 8 = win0_2.index t (0 : Fin 3) * 1 + 1 * (y 0).val; omega
  | ⟨1, _⟩ => show (t.val % 8) * 512 + (y 1).val = win0_2.index t (1 : Fin 3) * 512 + 1 * (y 1).val; omega
  | ⟨2, _⟩ => show (y 2).val = win0_2.index t (2 : Fin 3) * 2048 + 1 * (y 2).val; omega

/-- An index of the result array is in point `t`'s block iff each coordinate is in the block's range on its axis. -/
theorem mem_blk (t : Fin cfg0.N) (i : S4x4096x2048.Idx) :
    i ∈ ((cfg0.win 2).blk t).view.set ↔ ∀ a : Fin 3, win0_2.index t a * S1x512x2048.size a ≤ (i a).val
      ∧ (i a).val < win0_2.index t a * S1x512x2048.size a + S1x512x2048.size a := by
  show i ∈ ((View.whole main_v0).slice (win0_2.rect t)).set ↔ _
  rw [View.set_slice_whole, Rect.mem_set_unit]
  exact Iff.rfl

/-- THE BLOCKS TILE THE RESULT: the index at batch `b`, row `k` is in the block of point `8 b + k / 512`. -/
theorem cover (i : S4x4096x2048.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 2048 := (i 2).isLt
  have hlt : (i 0).val * 8 + (i 1).val / 512 < cfg0.N := by rw [show cfg0.N = 32 from N_0]; omega
  refine ⟨⟨(i 0).val * 8 + (i 1).val / 512, hlt⟩, flush0_2 _, ?_⟩
  obtain ⟨-, -, -, -, -, e0, e1, e2⟩ := idx_facts ⟨(i 0).val * 8 + (i 1).val / 512, hlt⟩
  have e0' : win0_2.index ⟨(i 0).val * 8 + (i 1).val / 512, hlt⟩ (0 : Fin 3) = ((i 0).val * 8 + (i 1).val / 512) / 8 := e0
  have e1' : win0_2.index ⟨(i 0).val * 8 + (i 1).val / 512, hlt⟩ (1 : Fin 3) = ((i 0).val * 8 + (i 1).val / 512) % 8 := e1
  rw [mem_blk]
  intro a
  match a with
  | ⟨0, _⟩ =>
    show win0_2.index ⟨(i 0).val * 8 + (i 1).val / 512, hlt⟩ (0 : Fin 3) * 1 ≤ (i 0).val
      ∧ (i 0).val < win0_2.index ⟨(i 0).val * 8 + (i 1).val / 512, hlt⟩ (0 : Fin 3) * 1 + 1
    omega
  | ⟨1, _⟩ =>
    show win0_2.index ⟨(i 0).val * 8 + (i 1).val / 512, hlt⟩ (1 : Fin 3) * 512 ≤ (i 1).val
      ∧ (i 1).val < win0_2.index ⟨(i 0).val * 8 + (i 1).val / 512, hlt⟩ (1 : Fin 3) * 512 + 512
    omega
  | ⟨2, _⟩ =>
    show win0_2.index ⟨(i 0).val * 8 + (i 1).val / 512, hlt⟩ (2 : Fin 3) * 2048 ≤ (i 2).val
      ∧ (i 2).val < win0_2.index ⟨(i 0).val * 8 + (i 1).val / 512, hlt⟩ (2 : Fin 3) * 2048 + 2048
    omega

/-- THE RESULT ARRAY after the run is `G` of the argument arrays. -/
theorem final (c : Dev nD) : (dats m 0 c).arrAt 2 cfg0.N = G (xarr m c) (warr m c) :=
  (dats m 0 c).arrAt_eq_of_cover 2 (G (xarr m c) (warr m c)) (fun t _ => flushed_eq m c t) (cover)

/-- The run, re-posted: the result array at `G` of the arguments, the arguments unchanged. -/
theorem run : θ_run defs (onTc (τ := τ) (main (F := Ideal))) ⟨m, fun _ => 0, ρ⟩ fun r => ∀ c : Dev nD,
      r.2.mem ((c : Thread nD τ).loc main_v0) = G (xarr m c) (warr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.CausalConv.Kernel

end
-- ==== Proof.lean ====
/-
  Depthwise causal convolution with four taps, then SiLU: the tiled kernel against its plain reference.

  At batch `b`, time `t` and channel `d` both programs compute `s · σ(s)`, where `s` is the four-tap sum over rows
  `t - 3 .. t` of the sequence (rows before the start counting as zero), the products added left to right, and `σ` is
  the logistic function. The kernel walks each batch in tiles of 512 rows and keeps every tile's last eight rows for
  the next tile of the same batch, with zeros in front of a batch's first tile; the reference pads the sequence with
  three zero rows and adds four windows of it shifted by 0, 1, 2, 3 rows.

  Each side is read at an index against ONE function `G` of the two argument arrays (Proof/Spec.lean): the
  reference's result in Proof/RefValue.lean; what one run of the kernel's body leaves, in Proof/Pieces.lean; the
  body's arithmetic at an index, in Proof/Payload.lean; and the kernel's result array, block by block over the grid,
  in Proof/KernelValue.lean. Both sides group the sum alike and the kernel's logistic is the reference's quotient
  `1 / (1 + e^(-s))` by definition, so no law of the extended reals is needed beyond reading at an index, and the
  finiteness of the inputs is not used.
-/
import proofs.«142087_j12781822672943_1_alg».proof.Defs
import proofs.«142087_j12781822672943_1_alg».proof.Proof.Gen.Kernel
import proofs.«142087_j12781822672943_1_alg».proof.Proof.Gen.Kernel.Skeleton
import proofs.«142087_j12781822672943_1_alg».proof.Proof.Gen.Kernel.Launch
import proofs.«142087_j12781822672943_1_alg».proof.Proof.Gen.Kernel.Points
import proofs.«142087_j12781822672943_1_alg».proof.Proof.Gen.Kernel.Frame
import proofs.«142087_j12781822672943_1_alg».proof.Proof.Gen.KernelIdeal
import proofs.«142087_j12781822672943_1_alg».proof.Proof.Gen.KernelIdeal.Skeleton
import proofs.«142087_j12781822672943_1_alg».proof.Proof.Gen.KernelIdeal.Launch
import proofs.«142087_j12781822672943_1_alg».proof.Proof.Gen.KernelIdeal.Points
import proofs.«142087_j12781822672943_1_alg».proof.Proof.Gen.KernelIdeal.Frame
import proofs.«142087_j12781822672943_1_alg».proof.Proof.Gen.ReferenceIdeal
import proofs.«142087_j12781822672943_1_alg».proof.Proof.Gen.Pre_finite_inputs
import proofs.«142087_j12781822672943_1_alg».proof.Proof.Gen.KernelIdeal.Value
import proofs.«142087_j12781822672943_1_alg».proof.Proof.Gen.ReferenceIdeal.Run
import proofs.«142087_j12781822672943_1_alg».proof.Proof.Gen.ReferenceIdeal.Read
import proofs.«142087_j12781822672943_1_alg».proof.Proof.Spec
import proofs.«142087_j12781822672943_1_alg».proof.Proof.RefValue
import proofs.«142087_j12781822672943_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read on the extended reals. -/
theorem preserves : Cert.preserves_Kernel_KernelIdeal := trivial

/-- From memories that agree on the sequence and the taps, the kernel's result array ends at `G` of them
    (Proof/KernelValue.lean) and so does the reference's (its run, read at an index in Proof/RefValue.lean). -/
theorem algebraic : Cert.algebraic_KernelIdeal_ReferenceIdeal := by
  intro m ρ m' ρ' _ hagree
  refine ⟨_, Cert.CausalConv.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2]
  exact Cert.CausalConv.Ref.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
